-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512x256 : Shape := ⟨2, ![512, 256]⟩
abbrev S256x2048 : Shape := ⟨2, ![256, 2048]⟩
abbrev S1x256 : Shape := ⟨2, ![1, 256]⟩

abbrev nBuf : Space → Nat
  | .hbm => 35
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .bf16⟩
  | .hbm, ⟨25, _⟩ => ⟨S2048x2048, .f32⟩
  | .hbm, ⟨26, _⟩ => ⟨S2048x2048, .bf16⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S4096x2048, .bf16⟩
  | .hbm, ⟨32, _⟩ => ⟨S4096x2048, .bf16⟩
  | .hbm, ⟨33, _⟩ => ⟨S4096x2048, .f32⟩
  | .hbm, ⟨34, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x256, .f32⟩
  | .local _ .vmem, ⟨11, _⟩ => ⟨S1x256, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x256, .f32⟩
  | .local _ .vmem, ⟨17, _⟩ => ⟨S1x256, .f32⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S1x256, .f32⟩
  | .local _ .vmem, ⟨23, _⟩ => ⟨S1x256, .f32⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  slices_S2048x4096_S2048x2048_0_0 : S2048x4096.Slices ![0, 0] S2048x2048
  bitsLt_bf16_f32 : FTy.bits .bf16 < FTy.bits .f32
  slices_S2048x4096_S2048x2048_0_2048 : S2048x4096.Slices ![0, 2048] S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .bf16 = 32 ∨ (Rect.block (s := S2048x2048) S256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S2048x2048.size a
  hwx0_12 : ∀ i : grid0.Coords, EltTy.bits .bf16 = 32 ∨ (Rect.block (s := S2048x2048) S256x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S2048x2048.size a
  hwx0_13 : ∀ i : grid0.Coords, EltTy.bits .bf16 = 32 ∨ (Rect.block (s := S2048x2048) S256x2048.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v20) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v13) S256x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15) S256x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v22_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v22_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  bcast_S_S4096x2048 : S_.BroadcastsInDim S4096x2048 (![] : Fin 0 → Fin S4096x2048.rank)
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.LibDotTransposedRhs.lean ====
/-
  A matrix product whose right operand is contracted on its LAST axis, read at an entry.

  For the dimension numbers `⟨[1], [1], [0], [0], [], []⟩` (an M×K operand times an N×K operand, no batch axis: the
  product x · wᵀ), the product accumulated into a zero array has, at entry (p, q), the value Σ_k lhs (p, k) · rhs (q, k)
  on the extended reals: no rounding and no order of summation is left in it. The statement is generic in the three
  extents and in the operands' float formats (a change of format is the identity on the extended reals), so it serves
  every such product of a kernel body; a printed dimension record with these six lists IS
  `DotDims.transposedRhs M K N` (its well-formedness proof is a proposition), so the lemma applies to it as it stands.
-/
import Idealize.ShloMosaic.PureOps.Ideal.Laws
import Idealize.ShloMosaic.Lib.ValueIdx

namespace Idealize.ShloMosaic.DotTransposedRhs

open Idealize.ShloMosaic Idealize.ShloMosaic.ValueIdx

/-- The left operand's row coordinate at output entry `i` is `i`'s row. -/
theorem lhs_row (M K N : Nat) (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction index. -/
theorem lhs_col (M K N : Nat) (i : (⟨2, ![M, N]⟩ : Shape).Idx) (c : (DotDims.transposedRhs M K N).contr.Idx) :
    ((DotDims.transposedRhs M K N).lhsIdx i c 1).val = (c ⟨0, Nat.one_pos⟩).val :=
  (DotDims.transposedRhs M K N).lhsIdx_val_of_single rfl i c

/-- The right operand's row coordinate at output entry `i` is `i`'s COLUMN: the right operand enters transposed. -/
theorem rhs_row (M K N : Nat) (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction index. -/
theorem rhs_col (M K N : Nat) (i : (⟨2, ![M, N]⟩ : Shape).Idx) (c : (DotDims.transposedRhs M K N).contr.Idx) :
    ((DotDims.transposedRhs M K N).rhsIdx i c 1).val = (c ⟨0, Nat.one_pos⟩).val :=
  (DotDims.transposedRhs M K N).rhsIdx_val_of_single rfl i c

/-- An M×K by N×K product (the right operand contracted on its last axis) into the zero array, at entry (p, q), is
    `Σ_k lhs (p, k) · rhs (q, k)`. -/
theorem matmul_zero_apply {φ₁ φ₂ : FTy} (M K N : Nat) (lhs : FVec Ideal ⟨2, ![M, K]⟩ φ₁) (rhs : FVec Ideal ⟨2, ![N, K]⟩ φ₂)
    (p : Fin M) (q : Fin N) :
    FloatOps.matmul (DotDims.transposedRhs M K N) none lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row M K N _ _
      | ⟨1, _⟩ => exact (rhs_col M K N _ _).trans hk)
  rw [el, er]

end Idealize.ShloMosaic.DotTransposedRhs
-- ==== Proof.Spec.lean ====
/-
  The LSTM cell as ONE function of its eleven argument arrays, entry by entry, on the extended reals.

  Sizes: a batch of 4096 rows; 2048 input features; 2048 hidden units. Each of the four gates (input i, forget f,
  candidate g, output o) has a weight of 2048 rows (one per hidden unit) and 4096 columns — the first 2048 columns
  meet the input row, the last 2048 the previous hidden row — and a bias of 2048 entries.

    pre_G (p, q) = Σ_{k < 2048} x (p, k) · W_G (q, k)  +  Σ_{k < 2048} h (p, k) · W_G (q, 2048 + k)  +  b_G (q)
    c' (p, q)    = σ (pre_f) · c (p, q) + σ (pre_i) · tanh (pre_g)
    h' (p, q)    = σ (pre_o) · tanh (c' (p, q))

  with σ x = 1 / (1 + e^(-x)) in the extended reals' conventions. Also here: the one law that joins a contraction over
  the 4096 joined columns to the two contractions over 2048 (a sum over a disjoint union, which needs only that
  addition is commutative and associative, so it holds with infinite terms too), and the word of the literal one.
-/
import Idealize.ShloMosaic.PureOps.Ideal.Laws
import Idealize.ShloMosaic.Lib.ValueIdx

noncomputable section

open scoped BigOperators

namespace Cert.LstmCell

open Idealize.ShloMosaic Idealize.ShloMosaic.ValueIdx

/-- Batch rows by features (or hidden units). -/
abbrev Act : Type := (⟨2, ![4096, 2048]⟩ : Shape).Idx → EReal
/-- A gate's weight: hidden units by joined (input then hidden) columns. -/
abbrev Wt : Type := (⟨2, ![2048, 4096]⟩ : Shape).Idx → EReal
/-- A gate's bias. -/
abbrev Bias : Type := (⟨1, ![2048]⟩ : Shape).Idx → EReal

/-- Column `k` of the input half of the joined columns. -/
abbrev lo (k : Fin 2048) : Fin 4096 := ⟨k.val, by omega⟩
/-- Column `k` of the hidden half of the joined columns. -/
abbrev hi (k : Fin 2048) : Fin 4096 := ⟨2048 + k.val, by omega⟩

/-- A gate's pre-activation at batch row `p` and hidden unit `q`. -/
def preact (x h : Act) (W : Wt) (b : Bias) (p : Fin 4096) (q : Fin 2048) : EReal :=
  (∑ k : Fin 2048, x (ix2 p k) * W (ix2 q (lo k))) + (∑ k : Fin 2048, h (ix2 p k) * W (ix2 q (hi k))) + b (ix1 q)

/-- The new cell state at (p, q). -/
def cell (x h c : Act) (Wi : Wt) (bi : Bias) (Wf : Wt) (bf : Bias) (Wg : Wt) (bg : Bias) (p : Fin 4096) (q : Fin 2048) : EReal :=
  Ideal.logistic (preact x h Wf bf p q) * c (ix2 p q) + Ideal.logistic (preact x h Wi bi p q) * Ideal.tanh (preact x h Wg bg p q)

/-- The new hidden state at (p, q). -/
def hidden (x h c : Act) (Wi : Wt) (bi : Bias) (Wf : Wt) (bf : Bias) (Wg : Wt) (bg : Bias) (Wo : Wt) (bo : Bias)
    (p : Fin 4096) (q : Fin 2048) : EReal :=
  Ideal.logistic (preact x h Wo bo p q) * Ideal.tanh (cell x h c Wi bi Wf bf Wg bg p q)

/-- The new cell state as an array. -/
def cellArr (x h c : Act) (Wi : Wt) (bi : Bias) (Wf : Wt) (bf : Bias) (Wg : Wt) (bg : Bias) : Act :=
  fun i => cell x h c Wi bi Wf bf Wg bg (i 0) (i 1)

/-- The new hidden state as an array. -/
def hiddenArr (x h c : Act) (Wi : Wt) (bi : Bias) (Wf : Wt) (bf : Bias) (Wg : Wt) (bg : Bias) (Wo : Wt) (bo : Bias) : Act :=
  fun i => hidden x h c Wi bi Wf bf Wg bg Wo bo (i 0) (i 1)

/-- A sum over the 4096 joined columns is the sum over the input half plus the sum over the hidden half. -/
theorem sum_joined {M : Type*} [AddCommMonoid M] (f : Fin 4096 → M) :
    ∑ k : Fin 4096, f k = (∑ k : Fin 2048, f (lo k)) + ∑ k : Fin 2048, f (hi k) :=
  Fin.sum_univ_add (a := 2048) (b := 2048) f

/-- The word `0x3F800000` is the number one. -/
theorem ofBits_one : Ideal.ofBits .f32 0x3F800000#32 = 1 := by
  simp [Ideal.ofBits, Ideal.ieee, -EReal.coe_mul]; norm_num

/-- One over one plus the exponential of the negation, spelled with the literal one, is the logistic function. -/
theorem logistic_spelled (v : EReal) :
    Ideal.div (Ideal.ofBits .f32 0x3F800000#32) (Ideal.ofBits .f32 0x3F800000#32 + Ideal.exp (-v)) = Ideal.logistic v := by
  rw [ofBits_one]; rfl

end Cert.LstmCell

end
-- ==== Proof.KernelEntry.lean ====
/-
  The kernel body's two stored values at ONE entry of a 512 × 256 output block, on the extended reals.

  The body holds a block of 512 batch rows of the input and of the previous hidden state (all 2048 columns each), the
  matching 512 × 256 block of the previous cell state, and for each gate the 256 weight rows of the block's hidden
  units, split in an input half and a hidden half of 2048 columns each, and the 256 bias entries as one row. At entry
  (p, q) of the block a gate's pre-activation is

      Σ_k xb (p, k) · wx (q, k)  +  Σ_k hb (p, k) · wh (q, k)  +  bb (0, q)

  (each product of a block with a transposed weight block is a sum over the shared 2048 columns; the bias row is
  repeated down the 512 rows), and the stored cell and hidden values are the LSTM formulas of these.
-/
import proofs.«173272_j67800353735261_1_alg».proof.Proof.Gen.KernelIdeal.Skeleton
import proofs.«173272_j67800353735261_1_alg».proof.Proof.LibDotTransposedRhs
import proofs.«173272_j67800353735261_1_alg».proof.Proof.Spec
import Idealize.ShloMosaic.Lib.Pipeline.Value
import Idealize.ShloMosaic.Lib.ValueIdx

noncomputable section

open scoped BigOperators

namespace Cert.KernelIdeal.Entry

open Cert.KernelIdeal Cert.KernelIdeal.Gen Idealize.ShloMosaic Idealize.ShloMosaic.ValueIdx Cert.LstmCell

/-- A gate's pre-activation at entry (p, q) of the block, from the blocks the body loaded. -/
def blockPre (xb hb : Vec Ideal S512x2048 .bf16) (wx wh : Vec Ideal S256x2048 .bf16) (bb : Vec Ideal S1x256 .f32)
    (p : Fin 512) (q : Fin 256) : EReal :=
  (∑ k : Fin 2048, xb (ix2 p k) * wx (ix2 q k)) + (∑ k : Fin 2048, hb (ix2 p k) * wh (ix2 q k)) + bb (ix2 (0 : Fin 1) q)

/-- The new cell state at entry (p, q) of the block. -/
def blockCell (xb hb : Vec Ideal S512x2048 .bf16) (cb : Vec Ideal S512x256 .f32)
    (wxi whi : Vec Ideal S256x2048 .bf16) (bib : Vec Ideal S1x256 .f32)
    (wxf whf : Vec Ideal S256x2048 .bf16) (bfb : Vec Ideal S1x256 .f32)
    (wxg whg : Vec Ideal S256x2048 .bf16) (bgb : Vec Ideal S1x256 .f32) (p : Fin 512) (q : Fin 256) : EReal :=
  Ideal.logistic (blockPre xb hb wxf whf bfb p q) * cb (ix2 p q)
    + Ideal.logistic (blockPre xb hb wxi whi bib p q) * Ideal.tanh (blockPre xb hb wxg whg bgb p q)

/-- A 512 × 2048 block times a transposed 256 × 2048 weight block, accumulated into zero, as the body spells it. -/
abbrev dotT (a : Vec Ideal S512x2048 .bf16) (w : Vec Ideal S256x2048 .bf16) : FVec Ideal S512x256 .f32 :=
  matmul (F := Ideal) (φ₁ := .bf16) (φ₂ := .bf16) dot_S512x2048_S256x2048_S512x256_1_1_0_0_n_n none a w
    (constant (F := Ideal) S512x256 .f32 0x00000000#32)

/-- That product at entry (p, q): the sum over the shared columns. -/
theorem dot_entry (a : Vec Ideal S512x2048 .bf16) (w : Vec Ideal S256x2048 .bf16) (p : Fin 512) (q : Fin 256) :
    dotT a w (ix2 p q) = ∑ k : Fin 2048, a (ix2 p k) * w (ix2 q k) :=
  DotTransposedRhs.matmul_zero_apply 512 2048 256 a w p q

/-- The bias row repeated down the rows, at entry (p, q), is the row's entry q. -/
theorem bias_entry (bb : Vec Ideal S1x256 .f32) (p : Fin 512) (q : Fin 256) :
    broadcastTo S512x256 bb broadcasts_S1x256_S512x256 (ix2 p q) = bb (ix2 (0 : Fin 1) q) :=
  broadcastTo_apply bb broadcasts_S1x256_S512x256 (ix2 p q) (ix2 (0 : Fin 1) q) (fun a => by
    match a with
    | ⟨0, _⟩ => rfl
    | ⟨1, _⟩ => rfl)

/-- The input gate's pre-activation as the body computes it. -/
theorem pay5_entry (xb hb : Vec Ideal S512x2048 .bf16) (wx wh : Vec Ideal S256x2048 .bf16) (bb : Vec Ideal S1x256 .f32)
    (p : Fin 512) (q : Fin 256) :
    k0_pay5 (F := Ideal) xb hb wx wh bb (ix2 p q) = blockPre xb hb wx wh bb p q := by
  unfold k0_pay5 k0_pay3 k0_pay4 blockPre
  simp only [shapeCast_self]
  show dotT xb wx (ix2 p q)
      + dotT hb wh (ix2 p q)
      + broadcastTo S512x256 bb broadcasts_S1x256_S512x256 (ix2 p q) = _
  rw [dot_entry, dot_entry, bias_entry]

/-- The forget gate's pre-activation as the body computes it. -/
theorem pay6_entry (xb hb : Vec Ideal S512x2048 .bf16) (wx wh : Vec Ideal S256x2048 .bf16) (bb : Vec Ideal S1x256 .f32)
    (p : Fin 512) (q : Fin 256) :
    k0_pay6 (F := Ideal) xb hb wx wh bb (ix2 p q) = blockPre xb hb wx wh bb p q := by
  unfold k0_pay6 k0_pay3 k0_pay4 blockPre
  simp only [shapeCast_self]
  show dotT xb wx (ix2 p q)
      + dotT hb wh (ix2 p q)
      + broadcastTo S512x256 bb broadcasts_S1x256_S512x256 (ix2 p q) = _
  rw [dot_entry, dot_entry, bias_entry]

/-- The input half of the candidate gate's product. -/
theorem pay7_entry (xb : Vec Ideal S512x2048 .bf16) (wx : Vec Ideal S256x2048 .bf16) (p : Fin 512) (q : Fin 256) :
    k0_pay7 (F := Ideal) xb wx (ix2 p q) = ∑ k : Fin 2048, xb (ix2 p k) * wx (ix2 q k) := by
  unfold k0_pay7 k0_pay3
  simp only [shapeCast_self]
  exact dot_entry xb wx p q

/-- THE STORED CELL STATE at entry (p, q) of the block. -/
theorem cell_entry (xb hb : Vec Ideal S512x2048 .bf16) (cb : Vec Ideal S512x256 .f32)
    (wxi whi : Vec Ideal S256x2048 .bf16) (bib : Vec Ideal S1x256 .f32)
    (wxf whf : Vec Ideal S256x2048 .bf16) (bfb : Vec Ideal S1x256 .f32)
    (wxg whg : Vec Ideal S256x2048 .bf16) (bgb : Vec Ideal S1x256 .f32) (p : Fin 512) (q : Fin 256) :
    k0_pay1 (F := Ideal) (k0_pay4 hb) cb (k0_pay5 xb hb wxi whi bib) (k0_pay6 xb hb wxf whf bfb) (k0_pay7 xb wxg) whg bgb (ix2 p q)
      = blockCell xb hb cb wxi whi bib wxf whf bfb wxg whg bgb p q := by
  unfold k0_pay1 k0_pay4 blockCell
  simp only [shapeCast_self]
  show Ideal.logistic (k0_pay6 (F := Ideal) xb hb wxf whf bfb (ix2 p q)) * cb (ix2 p q)
      + Ideal.logistic (k0_pay5 (F := Ideal) xb hb wxi whi bib (ix2 p q))
        * Ideal.tanh (k0_pay7 (F := Ideal) xb wxg (ix2 p q)
            + dotT hb whg (ix2 p q)
            + broadcastTo S512x256 bgb broadcasts_S1x256_S512x256 (ix2 p q)) = _
  rw [pay6_entry, pay5_entry, pay7_entry, dot_entry, bias_entry]
  rfl

/-- THE STORED HIDDEN STATE at entry (p, q) of the block. -/
theorem hidden_entry (xb hb : Vec Ideal S512x2048 .bf16) (cb : Vec Ideal S512x256 .f32)
    (wxi whi : Vec Ideal S256x2048 .bf16) (bib : Vec Ideal S1x256 .f32)
    (wxf whf : Vec Ideal S256x2048 .bf16) (bfb : Vec Ideal S1x256 .f32)
    (wxg whg : Vec Ideal S256x2048 .bf16) (bgb : Vec Ideal S1x256 .f32)
    (wxo who : Vec Ideal S256x2048 .bf16) (bob : Vec Ideal S1x256 .f32) (p : Fin 512) (q : Fin 256) :
    k0_pay2 (F := Ideal) (k0_pay3 xb) (k0_pay4 hb) cb (k0_pay5 xb hb wxi whi bib) (k0_pay6 xb hb wxf whf bfb) (k0_pay7 xb wxg) whg bgb
        wxo who bob (ix2 p q)
      = Ideal.logistic (blockPre xb hb wxo who bob p q) * Ideal.tanh (blockCell xb hb cb wxi whi bib wxf whf bfb wxg whg bgb p q) := by
  have hc := cell_entry xb hb cb wxi whi bib wxf whf bfb wxg whg bgb p q
  unfold k0_pay2
  simp only [shapeCast_self]
  show Ideal.logistic (dotT (k0_pay3 (F := Ideal) xb) wxo (ix2 p q)
          + dotT (k0_pay4 (F := Ideal) hb) who (ix2 p q)
          + broadcastTo S512x256 bob broadcasts_S1x256_S512x256 (ix2 p q))
      * Ideal.tanh (k0_pay1 (F := Ideal) (k0_pay4 hb) cb (k0_pay5 xb hb wxi whi bib) (k0_pay6 xb hb wxf whf bfb) (k0_pay7 xb wxg) whg bgb (ix2 p q)) = _
  rw [hc]
  unfold k0_pay3 k0_pay4 blockPre
  simp only [shapeCast_self]
  rw [dot_entry, dot_entry, bias_entry]

/-- When the loaded blocks hold the arrays' entries of batch row P and hidden unit Q (the weight blocks the two halves
    of weight row Q), the block's pre-activation at (p, q) is the gate's at (P, Q). -/
theorem blockPre_eq (xb hb : Vec Ideal S512x2048 .bf16) (wx wh : Vec Ideal S256x2048 .bf16) (bb : Vec Ideal S1x256 .f32)
    (x h : Act) (W : Wt) (b : Bias) (p : Fin 512) (q : Fin 256) (P : Fin 4096) (Q : Fin 2048)
    (hx : ∀ k : Fin 2048, xb (ix2 p k) = x (ix2 P k)) (hh : ∀ k : Fin 2048, hb (ix2 p k) = h (ix2 P k))
    (hwx : ∀ k : Fin 2048, wx (ix2 q k) = W (ix2 Q (lo k))) (hwh : ∀ k : Fin 2048, wh (ix2 q k) = W (ix2 Q (hi k)))
    (hbias : bb (ix2 (0 : Fin 1) q) = b (ix1 Q)) :
    blockPre xb hb wx wh bb p q = preact x h W b P Q := by
  unfold blockPre preact
  rw [hbias]
  congr 1
  congr 1
  · exact Finset.sum_congr rfl fun k _ => by rw [hx k, hwx k]
  · exact Finset.sum_congr rfl fun k _ => by rw [hh k, hwh k]

end Cert.KernelIdeal.Entry

end
-- ==== Proof.KernelValue.lean ====
/-
  The kernel's two result arrays after the run ARE the LSTM cell of Spec.lean.

  The grid has 8 × 8 points; point (I, J) works on batch rows 512·I … 512·I + 511 and hidden units 256·J … 256·J + 255.
  Before the call the host code cuts each gate's weight into its input half (columns 0 … 2047) and its hidden half
  (columns 2048 … 4095), turns each bias into a one-row array, and changes the float format of the input, the previous
  hidden state and the weight halves — which on the extended reals changes nothing. So at point (I, J):

    · the input and hidden blocks hold rows 512·I + p of the input and of the previous hidden state, all columns;
    · the cell block holds the previous cell state at (512·I + p, 256·J + q);
    · each weight block holds rows 256·J + q of one half of one gate's weight; each bias block entries 256·J + q.

  Hence entry (p, q) of what the point writes back is the specification at (512·I + p, 256·J + q); the 64 blocks tile
  the 4096 × 2048 results, so each result array is the specification's array.
-/
import proofs.«173272_j67800353735261_1_alg».proof.Proof.Gen.KernelIdeal.Value
import proofs.«173272_j67800353735261_1_alg».proof.Proof.KernelEntry
import Idealize.ShloMosaic.Lib.Pipeline.Value
import Idealize.ShloMosaic.Lib.StableHlo.Run
import Idealize.ShloMosaic.Lib.ValueIdx

noncomputable section

namespace Cert.KernelIdeal.KValue

open Cert.KernelIdeal Cert.KernelIdeal.Gen Cert.KernelIdeal.Value Cert.KernelIdeal.Entry
open Idealize.ShloMosaic Idealize.ShloMosaic.TcCoe Idealize.SL.Sem Idealize.ShloMosaic.ValueIdx Idealize.ShloMosaic.StableHlo Cert.LstmCell
open Idealize.ShloMosaic.Pipeline (Dat)

/-! ## The block formulas from the array formulas -/

/-- When the loaded blocks hold the arrays' entries of batch row P and hidden unit Q, the block's new cell state at
    (p, q) is the specification's at (P, Q). -/
theorem blockCell_eq (xb hb : Vec Ideal S512x2048 .bf16) (cb : Vec Ideal S512x256 .f32)
    (wxi whi : Vec Ideal S256x2048 .bf16) (bib : Vec Ideal S1x256 .f32)
    (wxf whf : Vec Ideal S256x2048 .bf16) (bfb : Vec Ideal S1x256 .f32)
    (wxg whg : Vec Ideal S256x2048 .bf16) (bgb : Vec Ideal S1x256 .f32)
    (x h c : Act) (Wi : Wt) (bi : Bias) (Wf : Wt) (bf : Bias) (Wg : Wt) (bg : Bias)
    (p : Fin 512) (q : Fin 256) (P : Fin 4096) (Q : Fin 2048)
    (hx : ∀ k : Fin 2048, xb (ix2 p k) = x (ix2 P k)) (hh : ∀ k : Fin 2048, hb (ix2 p k) = h (ix2 P k))
    (hc : cb (ix2 p q) = c (ix2 P Q))
    (hwxi : ∀ k : Fin 2048, wxi (ix2 q k) = Wi (ix2 Q (lo k))) (hwhi : ∀ k : Fin 2048, whi (ix2 q k) = Wi (ix2 Q (hi k)))
    (hbi : bib (ix2 (0 : Fin 1) q) = bi (ix1 Q))
    (hwxf : ∀ k : Fin 2048, wxf (ix2 q k) = Wf (ix2 Q (lo k))) (hwhf : ∀ k : Fin 2048, whf (ix2 q k) = Wf (ix2 Q (hi k)))
    (hbf : bfb (ix2 (0 : Fin 1) q) = bf (ix1 Q))
    (hwxg : ∀ k : Fin 2048, wxg (ix2 q k) = Wg (ix2 Q (lo k))) (hwhg : ∀ k : Fin 2048, whg (ix2 q k) = Wg (ix2 Q (hi k)))
    (hbg : bgb (ix2 (0 : Fin 1) q) = bg (ix1 Q)) :
    blockCell xb hb cb wxi whi bib wxf whf bfb wxg whg bgb p q = cell x h c Wi bi Wf bf Wg bg P Q := by
  unfold blockCell cell
  rw [blockPre_eq xb hb wxf whf bfb x h Wf bf p q P Q hx hh hwxf hwhf hbf,
    blockPre_eq xb hb wxi whi bib x h Wi bi p q P Q hx hh hwxi hwhi hbi,
    blockPre_eq xb hb wxg whg bgb x h Wg bg p q P Q hx hh hwxg hwhg hbg, hc]

/-! ## What the host code leaves in the arrays the windows stage, at an index -/

/-- The input half of a weight, in the changed float format, at (Q, k). -/
theorem half_lo_at (W : Wt) (j : S2048x2048.Idx) (Q k : Fin 2048) (h0 : (j 0).val = Q.val) (h1 : (j 1).val = k.val) :
    truncf (F := Ideal) .bf16 (extractStridedSlice S2048x2048 ![0, 0] W slices_S2048x4096_S2048x2048_0_0) bitsLt_bf16_f32 j
      = W (ix2 Q (lo k)) :=
  extractStridedSlice_apply ![0, 0] W slices_S2048x4096_S2048x2048_0_0 j (ix2 Q (lo k)) (fun a => match a with
    | ⟨0, _⟩ => by show Q.val = 0 + (j 0).val; omega
    | ⟨1, _⟩ => by show k.val = 0 + (j 1).val; omega)

/-- The hidden half of a weight, in the changed float format, at (Q, k). -/
theorem half_hi_at (W : Wt) (j : S2048x2048.Idx) (Q k : Fin 2048) (h0 : (j 0).val = Q.val) (h1 : (j 1).val = k.val) :
    truncf (F := Ideal) .bf16 (extractStridedSlice S2048x2048 ![0, 2048] W slices_S2048x4096_S2048x2048_0_2048) bitsLt_bf16_f32 j
      = W (ix2 Q (hi k)) :=
  extractStridedSlice_apply ![0, 2048] W slices_S2048x4096_S2048x2048_0_2048 j (ix2 Q (hi k)) (fun a => match a with
    | ⟨0, _⟩ => by show Q.val = 0 + (j 0).val; omega
    | ⟨1, _⟩ => by show 2048 + k.val = 2048 + (j 1).val; omega)

/-- A bias as a one-row array, at (0, Q). -/
theorem row_at (b : Bias) (j : S1x2048.Idx) (Q : Fin 2048) (h1 : (j 1).val = Q.val) :
    shapeCast S1x2048 b shapeCasts_S2048_S1x2048 j = b (ix1 Q) :=
  shapeCast_apply b shapeCasts_S2048_S1x2048 j (ix1 Q) (by
    rw [Shape.rowMajor_val_one, Shape.rowMajor_val_two]
    have h0 : (j 0).val < 1 := (j 0).isLt
    show Q.val = (j 0).val * 2048 + (j 1).val
    omega)

variable (m : (ℓ : Loc nD τ sig) → Buf (Elt Ideal) ℓ) (ρ : Dev nD → PrngReg)

theorem V_x (c : Dev nD) : (V m c main_v20 : S4096x2048.Idx → EReal) = truncf (F := Ideal) .bf16 (m ((c : Thread nD τ).loc main_arg0)) bitsLt_bf16_f32 := by
  dsimp only [Gen.V, Gen.hostOps0]; after_results
theorem V_h (c : Dev nD) : (V m c main_v21 : S4096x2048.Idx → EReal) = truncf (F := Ideal) .bf16 (m ((c : Thread nD τ).loc main_arg1)) bitsLt_bf16_f32 := by
  dsimp only [Gen.V, Gen.hostOps0]; after_results
theorem V_wxi (c : Dev nD) : (V m c main_v1 : S2048x2048.Idx → EReal)
    = truncf (F := Ideal) .bf16 (extractStridedSlice S2048x2048 ![0, 0] (m ((c : Thread nD τ).loc main_arg3)) slices_S2048x4096_S2048x2048_0_0) bitsLt_bf16_f32 := by
  dsimp only [Gen.V, Gen.hostOps0]; after_results
theorem V_whi (c : Dev nD) : (V m c main_v3 : S2048x2048.Idx → EReal)
    = truncf (F := Ideal) .bf16 (extractStridedSlice S2048x2048 ![0, 2048] (m ((c : Thread nD τ).loc main_arg3)) slices_S2048x4096_S2048x2048_0_2048) bitsLt_bf16_f32 := by
  dsimp only [Gen.V, Gen.hostOps0]; after_results
theorem V_wxf (c : Dev nD) : (V m c main_v5 : S2048x2048.Idx → EReal)
    = truncf (F := Ideal) .bf16 (extractStridedSlice S2048x2048 ![0, 0] (m ((c : Thread nD τ).loc main_arg5)) slices_S2048x4096_S2048x2048_0_0) bitsLt_bf16_f32 := by
  dsimp only [Gen.V, Gen.hostOps0]; after_results
theorem V_whf (c : Dev nD) : (V m c main_v7 : S2048x2048.Idx → EReal)
    = truncf (F := Ideal) .bf16 (extractStridedSlice S2048x2048 ![0, 2048] (m ((c : Thread nD τ).loc main_arg5)) slices_S2048x4096_S2048x2048_0_2048) bitsLt_bf16_f32 := by
  dsimp only [Gen.V, Gen.hostOps0]; after_results
theorem V_wxg (c : Dev nD) : (V m c main_v9 : S2048x2048.Idx → EReal)
    = truncf (F := Ideal) .bf16 (extractStridedSlice S2048x2048 ![0, 0] (m ((c : Thread nD τ).loc main_arg7)) slices_S2048x4096_S2048x2048_0_0) bitsLt_bf16_f32 := by
  dsimp only [Gen.V, Gen.hostOps0]; after_results
theorem V_whg (c : Dev nD) : (V m c main_v11 : S2048x2048.Idx → EReal)
    = truncf (F := Ideal) .bf16 (extractStridedSlice S2048x2048 ![0, 2048] (m ((c : Thread nD τ).loc main_arg7)) slices_S2048x4096_S2048x2048_0_2048) bitsLt_bf16_f32 := by
  dsimp only [Gen.V, Gen.hostOps0]; after_results
theorem V_wxo (c : Dev nD) : (V m c main_v13 : S2048x2048.Idx → EReal)
    = truncf (F := Ideal) .bf16 (extractStridedSlice S2048x2048 ![0, 0] (m ((c : Thread nD τ).loc main_arg9)) slices_S2048x4096_S2048x2048_0_0) bitsLt_bf16_f32 := by
  dsimp only [Gen.V, Gen.hostOps0]; after_results
theorem V_who (c : Dev nD) : (V m c main_v15 : S2048x2048.Idx → EReal)
    = truncf (F := Ideal) .bf16 (extractStridedSlice S2048x2048 ![0, 2048] (m ((c : Thread nD τ).loc main_arg9)) slices_S2048x4096_S2048x2048_0_2048) bitsLt_bf16_f32 := by
  dsimp only [Gen.V, Gen.hostOps0]; after_results
theorem V_bi (c : Dev nD) : (V m c main_v16 : S1x2048.Idx → EReal) = shapeCast S1x2048 (m ((c : Thread nD τ).loc main_arg4)) shapeCasts_S2048_S1x2048 := by
  dsimp only [Gen.V, Gen.hostOps0]; after_results; rfl
theorem V_bf (c : Dev nD) : (V m c main_v17 : S1x2048.Idx → EReal) = shapeCast S1x2048 (m ((c : Thread nD τ).loc main_arg6)) shapeCasts_S2048_S1x2048 := by
  dsimp only [Gen.V, Gen.hostOps0]; after_results; rfl
theorem V_bg (c : Dev nD) : (V m c main_v18 : S1x2048.Idx → EReal) = shapeCast S1x2048 (m ((c : Thread nD τ).loc main_arg8)) shapeCasts_S2048_S1x2048 := by
  dsimp only [Gen.V, Gen.hostOps0]; after_results; rfl
theorem V_bo (c : Dev nD) : (V m c main_v19 : S1x2048.Idx → EReal) = shapeCast S1x2048 (m ((c : Thread nD τ).loc main_arg10)) shapeCasts_S2048_S1x2048 := by
  dsimp only [Gen.V, Gen.hostOps0]; after_results; rfl

/-! ## The windows' index maps over the grid -/

theorem hz : (![0, 0] : Fin 2 → Nat) = fun _ => 0 := funext fun a => by fin_cases a <;> rfl

/-- Row blocks of the input and of the previous hidden state follow the result's row block; they span all columns. -/
theorem idx_w0 : ∀ t : Fin cfg0.N, win0_0.index t (0 : Fin 2) = win0_16.index t (0 : Fin 2) ∧ win0_0.index t (1 : Fin 2) = 0 :=
  (by decide +kernel : ∀ t : Fin grid0.N, _)
theorem idx_w1 : ∀ t : Fin cfg0.N, win0_1.index t (0 : Fin 2) = win0_16.index t (0 : Fin 2) ∧ win0_1.index t (1 : Fin 2) = 0 :=
  (by decide +kernel : ∀ t : Fin grid0.N, _)
/-- The previous cell state's block is the result's block. -/
theorem idx_w2 : ∀ t : Fin cfg0.N, win0_2.index t (0 : Fin 2) = win0_16.index t (0 : Fin 2) ∧ win0_2.index t (1 : Fin 2) = win0_16.index t (1 : Fin 2) :=
  (by decide +kernel : ∀ t : Fin grid0.N, _)
/-- A weight half's row block follows the result's COLUMN block; it spans all 2048 columns of the half. -/
theorem idx_w3 : ∀ t : Fin cfg0.N, win0_3.index t (0 : Fin 2) = win0_16.index t (1 : Fin 2) ∧ win0_3.index t (1 : Fin 2) = 0 :=
  (by decide +kernel : ∀ t : Fin grid0.N, _)
theorem idx_w4 : ∀ t : Fin cfg0.N, win0_4.index t (0 : Fin 2) = win0_16.index t (1 : Fin 2) ∧ win0_4.index t (1 : Fin 2) = 0 :=
  (by decide +kernel : ∀ t : Fin grid0.N, _)
/-- A bias row's column block follows the result's column block. -/
theorem idx_w5 : ∀ t : Fin cfg0.N, win0_5.index t (0 : Fin 2) = 0 ∧ win0_5.index t (1 : Fin 2) = win0_16.index t (1 : Fin 2) :=
  (by decide +kernel : ∀ t : Fin grid0.N, _)
theorem idx_w6 : ∀ t : Fin cfg0.N, win0_6.index t (0 : Fin 2) = win0_16.index t (1 : Fin 2) ∧ win0_6.index t (1 : Fin 2) = 0 :=
  (by decide +kernel : ∀ t : Fin grid0.N, _)
theorem idx_w7 : ∀ t : Fin cfg0.N, win0_7.index t (0 : Fin 2) = win0_16.index t (1 : Fin 2) ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = win0_16.index t (1 : Fin 2) :=
  (by decide +kernel : ∀ t : Fin grid0.N, _)
theorem idx_w9 : ∀ t : Fin cfg0.N, win0_9.index t (0 : Fin 2) = win0_16.index t (1 : Fin 2) ∧ win0_9.index t (1 : Fin 2) = 0 :=
  (by decide +kernel : ∀ t : Fin grid0.N, _)
theorem idx_w10 : ∀ t : Fin cfg0.N, win0_10.index t (0 : Fin 2) = win0_16.index t (1 : Fin 2) ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = win0_16.index t (1 : Fin 2) :=
  (by decide +kernel : ∀ t : Fin grid0.N, _)
theorem idx_w12 : ∀ t : Fin cfg0.N, win0_12.index t (0 : Fin 2) = win0_16.index t (1 : Fin 2) ∧ win0_12.index t (1 : Fin 2) = 0 :=
  (by decide +kernel : ∀ t : Fin grid0.N, _)
theorem idx_w13 : ∀ t : Fin cfg0.N, win0_13.index t (0 : Fin 2) = win0_16.index t (1 : Fin 2) ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = win0_16.index t (1 : Fin 2) :=
  (by decide +kernel : ∀ t : Fin grid0.N, _)
/-- The two results' blocks move together. -/
theorem idx_w15 : ∀ t : Fin cfg0.N, win0_15.index t (0 : Fin 2) = win0_16.index t (0 : Fin 2) ∧ win0_15.index t (1 : Fin 2) = win0_16.index t (1 : Fin 2) :=
  (by decide +kernel : ∀ t : Fin grid0.N, _)
/-- Every one of the 8 × 8 blocks of a result is some point's. -/
theorem idx_onto : ∀ (a b : Fin 8), ∃ t : Fin cfg0.N, win0_16.index t = ![a.val, b.val] :=
  (by decide +kernel : ∀ (a b : Fin 8), ∃ t : Fin grid0.N, win0_16.index t = ![a.val, b.val])

/-! ## The blocks' entries as the arguments' entries

  Below, (P, Q) is the array index of entry (p, q) of the result's block at point t:
  P = (row block) · 512 + p and Q = (column block) · 256 + q. -/

theorem blk_x (c : Dev nD) (t : Fin cfg0.N) (p : Fin 512) (k : Fin 2048) (P : Fin 4096)
    (hP : P.val = win0_16.index t (0 : Fin 2) * 512 + 1 * p.val) : iblk m c 0 t (ix2 p k) = m ((c : Thread nD τ).loc main_arg0) (ix2 P k) := by
  obtain ⟨e0, e1⟩ := idx_w0 t
  refine (congrFun (V_x m c) (((cfg0.win 0).blk t).view.emb (ix2 p k))).trans ?_
  refine congrArg (m ((c : Thread nD τ).loc main_arg0)) (funext fun a => Fin.ext ?_)
  match a with
  | ⟨0, _⟩ => show win0_0.index t (0 : Fin 2) * 512 + 1 * p.val = P.val; omega
  | ⟨1, _⟩ => show win0_0.index t (1 : Fin 2) * 2048 + 1 * k.val = k.val; omega

theorem blk_h (c : Dev nD) (t : Fin cfg0.N) (p : Fin 512) (k : Fin 2048) (P : Fin 4096)
    (hP : P.val = win0_16.index t (0 : Fin 2) * 512 + 1 * p.val) : iblk m c 1 t (ix2 p k) = m ((c : Thread nD τ).loc main_arg1) (ix2 P k) := by
  obtain ⟨e0, e1⟩ := idx_w1 t
  refine (congrFun (V_h m c) (((cfg0.win 1).blk t).view.emb (ix2 p k))).trans ?_
  refine congrArg (m ((c : Thread nD τ).loc main_arg1)) (funext fun a => Fin.ext ?_)
  match a with
  | ⟨0, _⟩ => show win0_1.index t (0 : Fin 2) * 512 + 1 * p.val = P.val; omega
  | ⟨1, _⟩ => show win0_1.index t (1 : Fin 2) * 2048 + 1 * k.val = k.val; omega

theorem blk_c (c : Dev nD) (t : Fin cfg0.N) (p : Fin 512) (q : Fin 256) (P : Fin 4096) (Q : Fin 2048)
    (hP : P.val = win0_16.index t (0 : Fin 2) * 512 + 1 * p.val) (hQ : Q.val = win0_16.index t (1 : Fin 2) * 256 + 1 * q.val) :
    iblk m c 2 t (ix2 p q) = m ((c : Thread nD τ).loc main_arg2) (ix2 P Q) := by
  obtain ⟨e0, e1⟩ := idx_w2 t
  refine (congrFun (V_main_arg2 m c) (((cfg0.win 2).blk t).view.emb (ix2 p q))).trans ?_
  refine congrArg (m ((c : Thread nD τ).loc main_arg2)) (funext fun a => Fin.ext ?_)
  match a with
  | ⟨0, _⟩ => show win0_2.index t (0 : Fin 2) * 512 + 1 * p.val = P.val; omega
  | ⟨1, _⟩ => show win0_2.index t (1 : Fin 2) * 256 + 1 * q.val = Q.val; omega

theorem blk_wxi (c : Dev nD) (t : Fin cfg0.N) (q : Fin 256) (k : Fin 2048) (Q : Fin 2048)
    (hQ : Q.val = win0_16.index t (1 : Fin 2) * 256 + 1 * q.val) : iblk m c 3 t (ix2 q k) = m ((c : Thread nD τ).loc main_arg3) (ix2 Q (lo k)) := by
  obtain ⟨e0, e1⟩ := idx_w3 t
  refine (congrFun (V_wxi m c) (((cfg0.win 3).blk t).view.emb (ix2 q k))).trans ?_
  exact half_lo_at _ _ Q k (by show win0_3.index t (0 : Fin 2) * 256 + 1 * q.val = Q.val; omega)
    (by show win0_3.index t (1 : Fin 2) * 2048 + 1 * k.val = k.val; omega)

theorem blk_whi (c : Dev nD) (t : Fin cfg0.N) (q : Fin 256) (k : Fin 2048) (Q : Fin 2048)
    (hQ : Q.val = win0_16.index t (1 : Fin 2) * 256 + 1 * q.val) : iblk m c 4 t (ix2 q k) = m ((c : Thread nD τ).loc main_arg3) (ix2 Q (hi k)) := by
  obtain ⟨e0, e1⟩ := idx_w4 t
  refine (congrFun (V_whi m c) (((cfg0.win 4).blk t).view.emb (ix2 q k))).trans ?_
  exact half_hi_at _ _ Q k (by show win0_4.index t (0 : Fin 2) * 256 + 1 * q.val = Q.val; omega)
    (by show win0_4.index t (1 : Fin 2) * 2048 + 1 * k.val = k.val; omega)

theorem blk_bi (c : Dev nD) (t : Fin cfg0.N) (q : Fin 256) (Q : Fin 2048)
    (hQ : Q.val = win0_16.index t (1 : Fin 2) * 256 + 1 * q.val) : iblk m c 5 t (ix2 (0 : Fin 1) q) = m ((c : Thread nD τ).loc main_arg4) (ix1 Q) := by
  obtain ⟨e0, e1⟩ := idx_w5 t
  refine (congrFun (V_bi m c) (((cfg0.win 5).blk t).view.emb (ix2 (0 : Fin 1) q))).trans ?_
  exact row_at _ _ Q (by show win0_5.index t (1 : Fin 2) * 256 + 1 * q.val = Q.val; omega)

theorem blk_wxf (c : Dev nD) (t : Fin cfg0.N) (q : Fin 256) (k : Fin 2048) (Q : Fin 2048)
    (hQ : Q.val = win0_16.index t (1 : Fin 2) * 256 + 1 * q.val) : iblk m c 6 t (ix2 q k) = m ((c : Thread nD τ).loc main_arg5) (ix2 Q (lo k)) := by
  obtain ⟨e0, e1⟩ := idx_w6 t
  refine (congrFun (V_wxf m c) (((cfg0.win 6).blk t).view.emb (ix2 q k))).trans ?_
  exact half_lo_at _ _ Q k (by show win0_6.index t (0 : Fin 2) * 256 + 1 * q.val = Q.val; omega)
    (by show win0_6.index t (1 : Fin 2) * 2048 + 1 * k.val = k.val; omega)

theorem blk_whf (c : Dev nD) (t : Fin cfg0.N) (q : Fin 256) (k : Fin 2048) (Q : Fin 2048)
    (hQ : Q.val = win0_16.index t (1 : Fin 2) * 256 + 1 * q.val) : iblk m c 7 t (ix2 q k) = m ((c : Thread nD τ).loc main_arg5) (ix2 Q (hi k)) := by
  obtain ⟨e0, e1⟩ := idx_w7 t
  refine (congrFun (V_whf m c) (((cfg0.win 7).blk t).view.emb (ix2 q k))).trans ?_
  exact half_hi_at _ _ Q k (by show win0_7.index t (0 : Fin 2) * 256 + 1 * q.val = Q.val; omega)
    (by show win0_7.index t (1 : Fin 2) * 2048 + 1 * k.val = k.val; omega)

theorem blk_bf (c : Dev nD) (t : Fin cfg0.N) (q : Fin 256) (Q : Fin 2048)
    (hQ : Q.val = win0_16.index t (1 : Fin 2) * 256 + 1 * q.val) : iblk m c 8 t (ix2 (0 : Fin 1) q) = m ((c : Thread nD τ).loc main_arg6) (ix1 Q) := by
  obtain ⟨e0, e1⟩ := idx_w8 t
  refine (congrFun (V_bf m c) (((cfg0.win 8).blk t).view.emb (ix2 (0 : Fin 1) q))).trans ?_
  exact row_at _ _ Q (by show win0_8.index t (1 : Fin 2) * 256 + 1 * q.val = Q.val; omega)

theorem blk_wxg (c : Dev nD) (t : Fin cfg0.N) (q : Fin 256) (k : Fin 2048) (Q : Fin 2048)
    (hQ : Q.val = win0_16.index t (1 : Fin 2) * 256 + 1 * q.val) : iblk m c 9 t (ix2 q k) = m ((c : Thread nD τ).loc main_arg7) (ix2 Q (lo k)) := by
  obtain ⟨e0, e1⟩ := idx_w9 t
  refine (congrFun (V_wxg m c) (((cfg0.win 9).blk t).view.emb (ix2 q k))).trans ?_
  exact half_lo_at _ _ Q k (by show win0_9.index t (0 : Fin 2) * 256 + 1 * q.val = Q.val; omega)
    (by show win0_9.index t (1 : Fin 2) * 2048 + 1 * k.val = k.val; omega)

theorem blk_whg (c : Dev nD) (t : Fin cfg0.N) (q : Fin 256) (k : Fin 2048) (Q : Fin 2048)
    (hQ : Q.val = win0_16.index t (1 : Fin 2) * 256 + 1 * q.val) : iblk m c 10 t (ix2 q k) = m ((c : Thread nD τ).loc main_arg7) (ix2 Q (hi k)) := by
  obtain ⟨e0, e1⟩ := idx_w10 t
  refine (congrFun (V_whg m c) (((cfg0.win 10).blk t).view.emb (ix2 q k))).trans ?_
  exact half_hi_at _ _ Q k (by show win0_10.index t (0 : Fin 2) * 256 + 1 * q.val = Q.val; omega)
    (by show win0_10.index t (1 : Fin 2) * 2048 + 1 * k.val = k.val; omega)

theorem blk_bg (c : Dev nD) (t : Fin cfg0.N) (q : Fin 256) (Q : Fin 2048)
    (hQ : Q.val = win0_16.index t (1 : Fin 2) * 256 + 1 * q.val) : iblk m c 11 t (ix2 (0 : Fin 1) q) = m ((c : Thread nD τ).loc main_arg8) (ix1 Q) := by
  obtain ⟨e0, e1⟩ := idx_w11 t
  refine (congrFun (V_bg m c) (((cfg0.win 11).blk t).view.emb (ix2 (0 : Fin 1) q))).trans ?_
  exact row_at _ _ Q (by show win0_11.index t (1 : Fin 2) * 256 + 1 * q.val = Q.val; omega)

theorem blk_wxo (c : Dev nD) (t : Fin cfg0.N) (q : Fin 256) (k : Fin 2048) (Q : Fin 2048)
    (hQ : Q.val = win0_16.index t (1 : Fin 2) * 256 + 1 * q.val) : iblk m c 12 t (ix2 q k) = m ((c : Thread nD τ).loc main_arg9) (ix2 Q (lo k)) := by
  obtain ⟨e0, e1⟩ := idx_w12 t
  refine (congrFun (V_wxo m c) (((cfg0.win 12).blk t).view.emb (ix2 q k))).trans ?_
  exact half_lo_at _ _ Q k (by show win0_12.index t (0 : Fin 2) * 256 + 1 * q.val = Q.val; omega)
    (by show win0_12.index t (1 : Fin 2) * 2048 + 1 * k.val = k.val; omega)

theorem blk_who (c : Dev nD) (t : Fin cfg0.N) (q : Fin 256) (k : Fin 2048) (Q : Fin 2048)
    (hQ : Q.val = win0_16.index t (1 : Fin 2) * 256 + 1 * q.val) : iblk m c 13 t (ix2 q k) = m ((c : Thread nD τ).loc main_arg9) (ix2 Q (hi k)) := by
  obtain ⟨e0, e1⟩ := idx_w13 t
  refine (congrFun (V_who m c) (((cfg0.win 13).blk t).view.emb (ix2 q k))).trans ?_
  exact half_hi_at _ _ Q k (by show win0_13.index t (0 : Fin 2) * 256 + 1 * q.val = Q.val; omega)
    (by show win0_13.index t (1 : Fin 2) * 2048 + 1 * k.val = k.val; omega)

theorem blk_bo (c : Dev nD) (t : Fin cfg0.N) (q : Fin 256) (Q : Fin 2048)
    (hQ : Q.val = win0_16.index t (1 : Fin 2) * 256 + 1 * q.val) : iblk m c 14 t (ix2 (0 : Fin 1) q) = m ((c : Thread nD τ).loc main_arg10) (ix1 Q) := by
  obtain ⟨e0, e1⟩ := idx_w14 t
  refine (congrFun (V_bo m c) (((cfg0.win 14).blk t).view.emb (ix2 (0 : Fin 1) q))).trans ?_
  exact row_at _ _ Q (by show win0_14.index t (1 : Fin 2) * 256 + 1 * q.val = Q.val; omega)

/-! ## What a point writes back -/

/-- The new cell state as an array of the arguments as launched. -/
abbrev cellOf (c : Dev nD) : Act :=
  cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The new hidden state as an array of the arguments as launched. -/
abbrev hiddenOf (c : Dev nD) : Act :=
  hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Entry (p, q) of the block's new cell state is the specification's at the entry's array index. -/
theorem blockCell_at (c : Dev nD) (t : Fin cfg0.N) (p : Fin 512) (q : Fin 256) (P : Fin 4096) (Q : Fin 2048)
    (hP : P.val = win0_16.index t (0 : Fin 2) * 512 + 1 * p.val) (hQ : Q.val = win0_16.index t (1 : Fin 2) * 256 + 1 * q.val) :
    blockCell (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q
      = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) P Q :=
  blockCell_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) p q P Q
    (fun k => blk_x m c t p k P hP) (fun k => blk_h m c t p k P hP) (blk_c m c t p q P Q hP hQ)
    (fun k => blk_wxi m c t q k Q hQ) (fun k => blk_whi m c t q k Q hQ) (blk_bi m c t q Q hQ)
    (fun k => blk_wxf m c t q k Q hQ) (fun k => blk_whf m c t q k Q hQ) (blk_bf m c t q Q hQ)
    (fun k => blk_wxg m c t q k Q hQ) (fun k => blk_whg m c t q k Q hQ) (blk_bg m c t q Q hQ)

/-- WHAT POINT t WRITES BACK to the cell-state result is its block of the specification's array. -/
theorem flushed16_eq (c : Dev nD) (t : Fin cfg0.N) :
    (dats m 0 c).flushed 16 t = ((cfg0.win 16).blk t).view.read (Elt Ideal) (cellOf m c) := by
  rw [Value.flushed16]
  unfold out0_16
  rw [View.canon_unit_zero hz]
  simp only [View.ld_unit_zero (S := S512x2048) hz, View.ld_unit_zero (S := S512x256) hz, View.ld_unit_zero (S := S256x2048) hz,
    View.ld_unit_zero (S := S1x256) hz]
  funext j
  obtain ⟨p, q, rfl⟩ : ∃ (p : Fin 512) (q : Fin 256), j = ix2 p q := ⟨j 0, j 1, eq_ix2 j⟩
  show k0_pay1 (F := Ideal) (k0_pay4 (iblk m c 1 t)) (iblk m c 2 t) (k0_pay5 (iblk m c 0 t) (iblk m c 1 t) (iblk m c 3 t) (iblk m c 4 t) (iblk m c 5 t))
      (k0_pay6 (iblk m c 0 t) (iblk m c 1 t) (iblk m c 6 t) (iblk m c 7 t) (iblk m c 8 t)) (k0_pay7 (iblk m c 0 t) (iblk m c 9 t)) (iblk m c 10 t) (iblk m c 11 t) (ix2 p q)
    = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (((cfg0.win 16).blk t).view.emb (ix2 p q) 0) (((cfg0.win 16).blk t).view.emb (ix2 p q) 1)
  refine (cell_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  exact blockCell_at m c t p q _ _ rfl rfl

/-- WHAT POINT t WRITES BACK to the hidden-state result is its block of the specification's array. -/
theorem flushed15_eq (c : Dev nD) (t : Fin cfg0.N) :
    (dats m 0 c).flushed 15 t = ((cfg0.win 15).blk t).view.read (Elt Ideal) (hiddenOf m c) := by
  obtain ⟨f0, f1⟩ := idx_w15 t
  rw [Value.flushed15]
  unfold out0_15
  rw [View.canon_unit_zero hz]
  simp only [View.ld_unit_zero (S := S512x2048) hz, View.ld_unit_zero (S := S512x256) hz, View.ld_unit_zero (S := S256x2048) hz,
    View.ld_unit_zero (S := S1x256) hz]
  funext j
  obtain ⟨p, q, rfl⟩ : ∃ (p : Fin 512) (q : Fin 256), j = ix2 p q := ⟨j 0, j 1, eq_ix2 j⟩
  show k0_pay2 (F := Ideal) (k0_pay3 (iblk m c 0 t)) (k0_pay4 (iblk m c 1 t)) (iblk m c 2 t) (k0_pay5 (iblk m c 0 t) (iblk m c 1 t) (iblk m c 3 t) (iblk m c 4 t) (iblk m c 5 t))
      (k0_pay6 (iblk m c 0 t) (iblk m c 1 t) (iblk m c 6 t) (iblk m c 7 t) (iblk m c 8 t)) (k0_pay7 (iblk m c 0 t) (iblk m c 9 t)) (iblk m c 10 t) (iblk m c 11 t) (iblk m c 12 t) (iblk m c 13 t) (iblk m c 14 t) (ix2 p q)
    = Cert.LstmCell.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        (((cfg0.win 15).blk t).view.emb (ix2 p q) 0) (((cfg0.win 15).blk t).view.emb (ix2 p q) 1)
  refine (hidden_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  have hP : (((cfg0.win 15).blk t).view.emb (ix2 p q) 0).val = win0_16.index t (0 : Fin 2) * 512 + 1 * p.val := by
    show win0_15.index t (0 : Fin 2) * 512 + 1 * p.val = _; omega
  have hQ : (((cfg0.win 15).blk t).view.emb (ix2 p q) 1).val = win0_16.index t (1 : Fin 2) * 256 + 1 * q.val := by
    show win0_15.index t (1 : Fin 2) * 256 + 1 * q.val = _; omega
  unfold Cert.LstmCell.hidden
  rw [blockPre_eq (iblk m c 0 t) (iblk m c 1 t) (iblk m c 12 t) (iblk m c 13 t) (iblk m c 14 t) (m ((c : Thread nD τ).loc main_arg0)) (m ((c : Thread nD τ).loc main_arg1)) (m ((c : Thread nD τ).loc main_arg9)) (m ((c : Thread nD τ).loc main_arg10)) p q _ _
      (fun k => blk_x m c t p k _ hP) (fun k => blk_h m c t p k _ hP)
      (fun k => blk_wxo m c t q k _ hQ) (fun k => blk_who m c t q k _ hQ) (blk_bo m c t q _ hQ),
    blockCell_at m c t p q _ _ hP hQ]

/-! ## The blocks tile the results -/

theorem mem_blk16 (t : Fin cfg0.N) (i : S4096x2048.Idx) :
    i ∈ ((cfg0.win 16).blk t).view.set ↔ ∀ a : Fin 2, win0_16.index t a * S512x256.size a ≤ (i a).val ∧ (i a).val < win0_16.index t a * S512x256.size a + S512x256.size a := by
  show i ∈ ((View.whole main_v22_1).slice (win0_16.rect t)).set ↔ _
  rw [View.set_slice_whole, Rect.mem_set_unit]
  exact Iff.rfl

theorem mem_blk15 (t : Fin cfg0.N) (i : S4096x2048.Idx) :
    i ∈ ((cfg0.win 15).blk t).view.set ↔ ∀ a : Fin 2, win0_15.index t a * S512x256.size a ≤ (i a).val ∧ (i a).val < win0_15.index t a * S512x256.size a + S512x256.size a := by
  show i ∈ ((View.whole main_v22_0).slice (win0_15.rect t)).set ↔ _
  rw [View.set_slice_whole, Rect.mem_set_unit]
  exact Iff.rfl

/-- Every index of the cell-state result lies in the block of the point whose row block is (row / 512) and whose
    column block is (column / 256). -/
theorem cover16 (i : S4096x2048.Idx) : ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

theorem cover15 (i : S4096x2048.Idx) : ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  obtain ⟨f0, f1⟩ := idx_w15 t
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- THE CELL-STATE RESULT after the run is the specification's array. -/
theorem final16 (c : Dev nD) : (dats m 0 c).arrAt 16 cfg0.N = cellOf m c :=
  (dats m 0 c).arrAt_eq_of_cover 16 (cellOf m c) (fun t _ => flushed16_eq m c t) cover16

/-- THE HIDDEN-STATE RESULT after the run is the specification's array. -/
theorem final15 (c : Dev nD) : (dats m 0 c).arrAt 15 cfg0.N = hiddenOf m c :=
  (dats m 0 c).arrAt_eq_of_cover 15 (hiddenOf m c) (fun t _ => flushed15_eq m c t) cover15

/-- THE KERNEL'S RUN: every execution ends with the hidden-state result and the cell-state result at the
    specification's arrays of the arguments as launched, the arguments unchanged. -/
theorem run : θ_run defs (onTc (τ := τ) (main (F := Ideal))) ⟨m, fun _ => 0, ρ⟩ fun r => ∀ c : Dev nD,
      r.2.mem ((c : Thread nD τ).loc main_v22_0) = hiddenOf m c
      ∧ r.2.mem ((c : Thread nD τ).loc main_v22_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final15 m c), (h c).2.1.trans (final16 m c), (h c).2.2⟩)
    (Value.run_blocks m ρ)

end Cert.KernelIdeal.KValue

end
-- ==== Proof.RefValue.lean ====
/-
  The reference, read entry by entry, IS the LSTM cell of Spec.lean.

  The reference joins the input and the previous hidden state into rows of 4096 columns, stacks the four gates'
  weights into 8192 rows (gate G's hidden unit q is row G · 2048 + q) and their biases into 8192 entries, takes ONE
  product of the joined rows with the transposed stack and adds the stacked bias, then cuts the 8192 columns of the
  result back into the four gates. Read at batch row p and column G · 2048 + q that is

      Σ_{k < 4096} joined (p, k) · W_G (q, k) + b_G (q),

  and a sum over the 4096 joined columns is the sum over the input half plus the sum over the hidden half: the
  gate's pre-activation of Spec.lean. The reference spells the logistic function as 1 / (1 + e^(-v)) with the literal
  one; that is the logistic function of the extended reals.
-/
import proofs.«173272_j67800353735261_1_alg».proof.Proof.Gen.ReferenceIdeal.Read
import proofs.«173272_j67800353735261_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.LstmCell

/-- Row `q` of gate 0 (input), 1 (forget), 2 (candidate), 3 (output) in the stack of 8192 rows. -/
abbrev row0 (q : Fin 2048) : Fin 8192 := ⟨q.val, by omega⟩
abbrev row1 (q : Fin 2048) : Fin 8192 := ⟨2048 + q.val, by omega⟩
abbrev row2 (q : Fin 2048) : Fin 8192 := ⟨4096 + q.val, by omega⟩
abbrev row3 (q : Fin 2048) : Fin 8192 := ⟨6144 + q.val, by omega⟩

variable (x0 x1 x2 : Act) (x3 : Wt) (x4 : Bias) (x5 : Wt) (x6 : Bias) (x7 : Wt) (x8 : Bias) (x9 : Wt) (x10 : Bias)

/-! ## The three joins, at an entry -/

/-- The joined row at a column of the input half is the input's entry. -/
theorem joined_lo (p : Fin 4096) (k : Fin 2048) : val_main_v0 (F := Ideal) x0 x1 (ix2 p (lo k)) = x0 (ix2 p k) := by
  unfold val_main_v0
  exact concatenate_pair_apply_left 1 x0 x1 concatenates_S4096x2048_S4096x2048_S4096x4096_d1 (ix2 p (lo k)) rfl (ix2 p k)
    (fun b => match b with
      | ⟨0, _⟩ => rfl
      | ⟨1, _⟩ => rfl)

/-- The joined row at a column of the hidden half is the previous hidden state's entry. -/
theorem joined_hi (p : Fin 4096) (k : Fin 2048) : val_main_v0 (F := Ideal) x0 x1 (ix2 p (hi k)) = x1 (ix2 p k) := by
  unfold val_main_v0
  exact concatenate_pair_apply_right 1 x0 x1 concatenates_S4096x2048_S4096x2048_S4096x4096_d1 (ix2 p (hi k)) rfl rfl (ix2 p k)
    (fun b hb => match b, hb with
      | ⟨0, _⟩, _ => rfl
      | ⟨1, _⟩, hb => absurd rfl hb)
    (by show k.val + 2048 = 2048 + k.val; omega)

/-- Row `q` of gate 0 in the weight stack is row `q` of the input gate's weight. -/
theorem stack_w0 (q : Fin 2048) (k : Fin 4096) : val_main_v1 (F := Ideal) x3 x5 x7 x9 (ix2 (row0 q) k) = x3 (ix2 q k) := by
  unfold val_main_v1
  exact concatenate_apply_piece 0 ([⟨S2048x4096, x3⟩, ⟨S2048x4096, x5⟩, ⟨S2048x4096, x7⟩, ⟨S2048x4096, x9⟩] : List ((s : Shape) × (s.Idx → EReal))) concatenates_S2048x4096_S2048x4096_S2048x4096_S2048x4096_S8192x4096_d0 (ix2 (row0 q) k)
    0 (by show (0 : Nat) < 4; decide) S2048x4096 x3 rfl rfl 0 rfl (ix2 q k)
    (fun b hb => match b, hb with
      | ⟨0, _⟩, hb => absurd rfl hb
      | ⟨1, _⟩, _ => rfl)
    (by show 0 + q.val = q.val; omega)

theorem stack_w1 (q : Fin 2048) (k : Fin 4096) : val_main_v1 (F := Ideal) x3 x5 x7 x9 (ix2 (row1 q) k) = x5 (ix2 q k) := by
  unfold val_main_v1
  exact concatenate_apply_piece 0 ([⟨S2048x4096, x3⟩, ⟨S2048x4096, x5⟩, ⟨S2048x4096, x7⟩, ⟨S2048x4096, x9⟩] : List ((s : Shape) × (s.Idx → EReal))) concatenates_S2048x4096_S2048x4096_S2048x4096_S2048x4096_S8192x4096_d0 (ix2 (row1 q) k)
    1 (by show (1 : Nat) < 4; decide) S2048x4096 x5 rfl rfl 2048 rfl (ix2 q k)
    (fun b hb => match b, hb with
      | ⟨0, _⟩, hb => absurd rfl hb
      | ⟨1, _⟩, _ => rfl)
    (by show 2048 + q.val = 2048 + q.val; rfl)

theorem stack_w2 (q : Fin 2048) (k : Fin 4096) : val_main_v1 (F := Ideal) x3 x5 x7 x9 (ix2 (row2 q) k) = x7 (ix2 q k) := by
  unfold val_main_v1
  exact concatenate_apply_piece 0 ([⟨S2048x4096, x3⟩, ⟨S2048x4096, x5⟩, ⟨S2048x4096, x7⟩, ⟨S2048x4096, x9⟩] : List ((s : Shape) × (s.Idx → EReal))) concatenates_S2048x4096_S2048x4096_S2048x4096_S2048x4096_S8192x4096_d0 (ix2 (row2 q) k)
    2 (by show (2 : Nat) < 4; decide) S2048x4096 x7 rfl rfl 4096 rfl (ix2 q k)
    (fun b hb => match b, hb with
      | ⟨0, _⟩, hb => absurd rfl hb
      | ⟨1, _⟩, _ => rfl)
    (by show 4096 + q.val = 4096 + q.val; rfl)

theorem stack_w3 (q : Fin 2048) (k : Fin 4096) : val_main_v1 (F := Ideal) x3 x5 x7 x9 (ix2 (row3 q) k) = x9 (ix2 q k) := by
  unfold val_main_v1
  exact concatenate_apply_piece 0 ([⟨S2048x4096, x3⟩, ⟨S2048x4096, x5⟩, ⟨S2048x4096, x7⟩, ⟨S2048x4096, x9⟩] : List ((s : Shape) × (s.Idx → EReal))) concatenates_S2048x4096_S2048x4096_S2048x4096_S2048x4096_S8192x4096_d0 (ix2 (row3 q) k)
    3 (by show (3 : Nat) < 4; decide) S2048x4096 x9 rfl rfl 6144 rfl (ix2 q k)
    (fun b hb => match b, hb with
      | ⟨0, _⟩, hb => absurd rfl hb
      | ⟨1, _⟩, _ => rfl)
    (by show 6144 + q.val = 6144 + q.val; rfl)

/-- Entry `q` of gate 0 in the bias stack is entry `q` of the input gate's bias; likewise the other three. -/
theorem stack_b0 (q : Fin 2048) : val_main_v2 (F := Ideal) x4 x6 x8 x10 (ix1 (row0 q)) = x4 (ix1 q) := by
  unfold val_main_v2
  exact concatenate_apply_piece 0 ([⟨S2048, x4⟩, ⟨S2048, x6⟩, ⟨S2048, x8⟩, ⟨S2048, x10⟩] : List ((s : Shape) × (s.Idx → EReal))) concatenates_S2048_S2048_S2048_S2048_S8192_d0 (ix1 (row0 q))
    0 (by show (0 : Nat) < 4; decide) S2048 x4 rfl rfl 0 rfl (ix1 q)
    (fun b hb => match b, hb with
      | ⟨0, _⟩, hb => absurd rfl hb)
    (by show 0 + q.val = q.val; omega)

theorem stack_b1 (q : Fin 2048) : val_main_v2 (F := Ideal) x4 x6 x8 x10 (ix1 (row1 q)) = x6 (ix1 q) := by
  unfold val_main_v2
  exact concatenate_apply_piece 0 ([⟨S2048, x4⟩, ⟨S2048, x6⟩, ⟨S2048, x8⟩, ⟨S2048, x10⟩] : List ((s : Shape) × (s.Idx → EReal))) concatenates_S2048_S2048_S2048_S2048_S8192_d0 (ix1 (row1 q))
    1 (by show (1 : Nat) < 4; decide) S2048 x6 rfl rfl 2048 rfl (ix1 q)
    (fun b hb => match b, hb with
      | ⟨0, _⟩, hb => absurd rfl hb)
    (by show 2048 + q.val = 2048 + q.val; rfl)

theorem stack_b2 (q : Fin 2048) : val_main_v2 (F := Ideal) x4 x6 x8 x10 (ix1 (row2 q)) = x8 (ix1 q) := by
  unfold val_main_v2
  exact concatenate_apply_piece 0 ([⟨S2048, x4⟩, ⟨S2048, x6⟩, ⟨S2048, x8⟩, ⟨S2048, x10⟩] : List ((s : Shape) × (s.Idx → EReal))) concatenates_S2048_S2048_S2048_S2048_S8192_d0 (ix1 (row2 q))
    2 (by show (2 : Nat) < 4; decide) S2048 x8 rfl rfl 4096 rfl (ix1 q)
    (fun b hb => match b, hb with
      | ⟨0, _⟩, hb => absurd rfl hb)
    (by show 4096 + q.val = 4096 + q.val; rfl)

theorem stack_b3 (q : Fin 2048) : val_main_v2 (F := Ideal) x4 x6 x8 x10 (ix1 (row3 q)) = x10 (ix1 q) := by
  unfold val_main_v2
  exact concatenate_apply_piece 0 ([⟨S2048, x4⟩, ⟨S2048, x6⟩, ⟨S2048, x8⟩, ⟨S2048, x10⟩] : List ((s : Shape) × (s.Idx → EReal))) concatenates_S2048_S2048_S2048_S2048_S8192_d0 (ix1 (row3 q))
    3 (by show (3 : Nat) < 4; decide) S2048 x10 rfl rfl 6144 rfl (ix1 q)
    (fun b hb => match b, hb with
      | ⟨0, _⟩, hb => absurd rfl hb)
    (by show 6144 + q.val = 6144 + q.val; rfl)

/-! ## The fused product plus bias, at an entry -/

/-- The product of the joined rows with the transposed weight stack, plus the stacked bias, at batch row `p` and
    stacked column `n`: the sum over the 4096 joined columns, plus the bias entry. -/
theorem fused_entry (p : Fin 4096) (n : Fin 8192) :
    val_main_v7 (F := Ideal) x0 x1 x3 x4 x5 x6 x7 x8 x9 x10 (ix2 p n)
      = (∑ k : Fin 4096, val_main_v0 (F := Ideal) x0 x1 (ix2 p k) * val_main_v1 (F := Ideal) x3 x5 x7 x9 (ix2 n k))
        + val_main_v2 (F := Ideal) x4 x6 x8 x10 (ix1 n) := by
  rw [val_main_v7_apply, val_main_v4_apply, val_main_v6_apply, val_main_v5_apply]
  simp only [val_main_v3_apply]
  have e1 : ∀ k : Fin 4096, lidx_main_v4 (ix2 p n) k = ix2 p k := fun k => funext fun a => by
    match a with
    | ⟨0, _⟩ => rfl
    | ⟨1, _⟩ => rfl
  have e2 : ∀ k : Fin 4096, idx_main_v3 (ridx_main_v4 (ix2 p n) k) = ix2 n k := fun k => funext fun a => by
    match a with
    | ⟨0, _⟩ => rfl
    | ⟨1, _⟩ => rfl
  have e3 : idx_main_v5 (idx_main_v6 (ix2 p n)) = ix1 n := funext fun a => by
    match a with
    | ⟨0, _⟩ => rfl
  simp only [e1, e2, e3]
  rfl

/-- Split over the two halves of the joined columns. -/
theorem fused_split (p : Fin 4096) (n : Fin 8192) :
    val_main_v7 (F := Ideal) x0 x1 x3 x4 x5 x6 x7 x8 x9 x10 (ix2 p n)
      = (∑ k : Fin 2048, x0 (ix2 p k) * val_main_v1 (F := Ideal) x3 x5 x7 x9 (ix2 n (lo k)))
        + (∑ k : Fin 2048, x1 (ix2 p k) * val_main_v1 (F := Ideal) x3 x5 x7 x9 (ix2 n (hi k)))
        + val_main_v2 (F := Ideal) x4 x6 x8 x10 (ix1 n) := by
  rw [fused_entry, sum_joined]
  simp only [joined_lo, joined_hi]

/-- The four column ranges of the fused result are the four gates' pre-activations. -/
theorem pre_i (p : Fin 4096) (q : Fin 2048) :
    val_main_v7 (F := Ideal) x0 x1 x3 x4 x5 x6 x7 x8 x9 x10 (ix2 p (row0 q)) = preact x0 x1 x3 x4 p q := by
  rw [fused_split]; unfold preact; simp only [stack_w0, stack_b0]

theorem pre_f (p : Fin 4096) (q : Fin 2048) :
    val_main_v7 (F := Ideal) x0 x1 x3 x4 x5 x6 x7 x8 x9 x10 (ix2 p (row1 q)) = preact x0 x1 x5 x6 p q := by
  rw [fused_split]; unfold preact; simp only [stack_w1, stack_b1]

theorem pre_g (p : Fin 4096) (q : Fin 2048) :
    val_main_v7 (F := Ideal) x0 x1 x3 x4 x5 x6 x7 x8 x9 x10 (ix2 p (row2 q)) = preact x0 x1 x7 x8 p q := by
  rw [fused_split]; unfold preact; simp only [stack_w2, stack_b2]

theorem pre_o (p : Fin 4096) (q : Fin 2048) :
    val_main_v7 (F := Ideal) x0 x1 x3 x4 x5 x6 x7 x8 x9 x10 (ix2 p (row3 q)) = preact x0 x1 x9 x10 p q := by
  rw [fused_split]; unfold preact; simp only [stack_w3, stack_b3]

/-! ## The gates and the two results -/

/-- Where each gate's cut reads the fused result. -/
theorem cut_i (p : Fin 4096) (q : Fin 2048) : idx_main_v8 (ix2 p q) = ix2 p (row0 q) := funext fun a => by
  match a with
  | ⟨0, _⟩ => rfl
  | ⟨1, _⟩ => rfl
theorem cut_f (p : Fin 4096) (q : Fin 2048) : idx_main_v15 (ix2 p q) = ix2 p (row1 q) := funext fun a => by
  match a with
  | ⟨0, _⟩ => rfl
  | ⟨1, _⟩ => rfl
theorem cut_g (p : Fin 4096) (q : Fin 2048) : idx_main_v22 (ix2 p q) = ix2 p (row2 q) := funext fun a => by
  match a with
  | ⟨0, _⟩ => rfl
  | ⟨1, _⟩ => rfl
theorem cut_o (p : Fin 4096) (q : Fin 2048) : idx_main_v24 (ix2 p q) = ix2 p (row3 q) := funext fun a => by
  match a with
  | ⟨0, _⟩ => rfl
  | ⟨1, _⟩ => rfl

/-- The reference's spelling of the logistic function, in the host's operations. -/
theorem sigmoid_host (v : EReal) :
    FloatOps.hostDivf (F := Ideal) (φ := .f32) (FloatOps.ofBits .f32 0x3F800000#32)
      (FloatOps.addf (FloatOps.ofBits .f32 0x3F800000#32) (FloatOps.hostUnary .exp (FloatOps.hostNegf v))) = Ideal.logistic v :=
  logistic_spelled v

/-- The input gate. -/
theorem gate_i (p : Fin 4096) (q : Fin 2048) :
    val_main_v14 (F := Ideal) x0 x1 x3 x4 x5 x6 x7 x8 x9 x10 (ix2 p q) = Ideal.logistic (preact x0 x1 x3 x4 p q) := by
  rw [val_main_v14_apply, val_main_v13_apply, val_main_cst_0_apply, val_main_v12_apply, val_main_v11_apply, val_main_cst_apply,
    val_main_v10_apply, val_main_v9_apply, val_main_v8_apply, cut_i, pre_i]
  exact sigmoid_host _

/-- The forget gate. -/
theorem gate_f (p : Fin 4096) (q : Fin 2048) :
    val_main_v21 (F := Ideal) x0 x1 x3 x4 x5 x6 x7 x8 x9 x10 (ix2 p q) = Ideal.logistic (preact x0 x1 x5 x6 p q) := by
  rw [val_main_v21_apply, val_main_v20_apply, val_main_cst_2_apply, val_main_v19_apply, val_main_v18_apply, val_main_cst_1_apply,
    val_main_v17_apply, val_main_v16_apply, val_main_v15_apply, cut_f, pre_f]
  exact sigmoid_host _

/-- The candidate. -/
theorem gate_g (p : Fin 4096) (q : Fin 2048) :
    val_main_v23 (F := Ideal) x0 x1 x3 x4 x5 x6 x7 x8 x9 x10 (ix2 p q) = Ideal.tanh (preact x0 x1 x7 x8 p q) := by
  rw [val_main_v23_apply, val_main_v22_apply, cut_g, pre_g]
  rfl

/-- The output gate. -/
theorem gate_o (p : Fin 4096) (q : Fin 2048) :
    val_main_v30 (F := Ideal) x0 x1 x3 x4 x5 x6 x7 x8 x9 x10 (ix2 p q) = Ideal.logistic (preact x0 x1 x9 x10 p q) := by
  rw [val_main_v30_apply, val_main_v29_apply, val_main_cst_4_apply, val_main_v28_apply, val_main_v27_apply, val_main_cst_3_apply,
    val_main_v26_apply, val_main_v25_apply, val_main_v24_apply, cut_o, pre_o]
  exact sigmoid_host _

/-- THE REFERENCE'S NEW CELL STATE is the specification's. -/
theorem cell_ref : val_main_v33 (F := Ideal) x0 x1 x2 x3 x4 x5 x6 x7 x8 x9 x10 = cellArr x0 x1 x2 x3 x4 x5 x6 x7 x8 := by
  funext i
  obtain ⟨p, q, rfl⟩ : ∃ (p : Fin 4096) (q : Fin 2048), i = ix2 p q := ⟨i 0, i 1, eq_ix2 i⟩
  rw [val_main_v33_apply, val_main_v31_apply, val_main_v32_apply, gate_f, gate_i, gate_g]
  rfl

/-- THE REFERENCE'S NEW HIDDEN STATE is the specification's. -/
theorem hidden_ref : val_main_v35 (F := Ideal) x0 x1 x2 x3 x4 x5 x6 x7 x8 x9 x10 = hiddenArr x0 x1 x2 x3 x4 x5 x6 x7 x8 x9 x10 := by
  funext i
  rw [val_main_v35_apply, val_main_v34_apply, cell_ref]
  obtain ⟨p, q, rfl⟩ : ∃ (p : Fin 4096) (q : Fin 2048), i = ix2 p q := ⟨i 0, i 1, eq_ix2 i⟩
  rw [gate_o]
  rfl

end Cert.ReferenceIdeal.RefValue

end
-- ==== Proof.lean ====
/-
  One step of an LSTM cell, fused in one kernel, against the plain formulas.

  Arguments: a batch of 4096 input rows (2048 features), the previous hidden and cell states (4096 × 2048 each), and for
  each of the four gates a weight of 2048 × 4096 and a bias of 2048. The kernel cuts each weight into the half that
  meets the input and the half that meets the previous hidden state, and on an 8 × 8 grid of 512 × 256 result blocks
  computes, per gate, (input block) · (input-half rows)ᵀ + (hidden block) · (hidden-half rows)ᵀ + bias, then

      c' = σ(f) · c + σ(i) · tanh(g),      h' = σ(o) · tanh(c').

  The reference joins input and hidden state into rows of 4096, stacks the four weights into 8192 rows, takes one product
  and cuts the 8192 columns back into the gates, spelling σ(v) as 1 / (1 + e^(-v)).

  On the extended reals the two are the same function of the arguments, entry by entry: a change of float format is
  the identity; a contraction over the 4096 joined columns is the sum of the contractions over its two halves (a sum
  over a disjoint union: commutativity and associativity of addition only, so no finiteness of the inputs is used);
  and σ as the reference spells it is the kernel's logistic function. Spec.lean states that function;
  KernelEntry.lean and KernelValue.lean show the kernel's two result arrays hold it after the run; RefValue.lean shows
  the reference's two results are it. The three frames are the generated ones (the reference's is its generated run
  with the results dropped), and the idealization changed no operation, so `preserves` has nothing to state.
-/
import proofs.«173272_j67800353735261_1_alg».proof.Defs
import proofs.«173272_j67800353735261_1_alg».proof.Proof.Gen.Kernel
import proofs.«173272_j67800353735261_1_alg».proof.Proof.Gen.Kernel.Skeleton
import proofs.«173272_j67800353735261_1_alg».proof.Proof.Gen.Kernel.Launch
import proofs.«173272_j67800353735261_1_alg».proof.Proof.Gen.Kernel.Points
import proofs.«173272_j67800353735261_1_alg».proof.Proof.Gen.Kernel.Frame
import proofs.«173272_j67800353735261_1_alg».proof.Proof.Gen.KernelIdeal
import proofs.«173272_j67800353735261_1_alg».proof.Proof.Gen.KernelIdeal.Skeleton
import proofs.«173272_j67800353735261_1_alg».proof.Proof.Gen.KernelIdeal.Launch
import proofs.«173272_j67800353735261_1_alg».proof.Proof.Gen.KernelIdeal.Points
import proofs.«173272_j67800353735261_1_alg».proof.Proof.Gen.KernelIdeal.Frame
import proofs.«173272_j67800353735261_1_alg».proof.Proof.Gen.ReferenceIdeal
import proofs.«173272_j67800353735261_1_alg».proof.Proof.Gen.Pre_finite_inputs
import proofs.«173272_j67800353735261_1_alg».proof.Proof.Gen.KernelIdeal.Value
import proofs.«173272_j67800353735261_1_alg».proof.Proof.Gen.ReferenceIdeal.Run
import proofs.«173272_j67800353735261_1_alg».proof.Proof.Gen.ReferenceIdeal.Read
import proofs.«173272_j67800353735261_1_alg».proof.Proof.KernelValue
import proofs.«173272_j67800353735261_1_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten for the reading on the extended reals. -/
theorem preserves : Cert.preserves_Kernel_KernelIdeal := trivial

/-- Run from memories that agree on the eleven arguments, the kernel and the reference both end, the kernel's two result
    arrays and the reference's two results all at the LSTM cell's new hidden state and new cell state of the arguments. -/
theorem algebraic : Cert.algebraic_KernelIdeal_ReferenceIdeal := by
  intro m ρ m' ρ' _ hagree
  refine ⟨fun c => Cert.KernelIdeal.KValue.hiddenOf m c, fun c => Cert.KernelIdeal.KValue.cellOf m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.ReferenceIdeal.RefValue.hidden_ref, a0, a1, a2, a3, a4, a5, a6, a7, a8, a9, a10]
  · obtain ⟨a0, a1, a2, a3, a4, a5, a6, a7, a8, a9, a10⟩ := hagree c
    refine (Cert.ReferenceIdeal.Read.val_main_v33_eq (F := Ideal) _ _ _ _ _ _ _ _ _ _ _).trans ?_
    rw [Cert.ReferenceIdeal.RefValue.cell_ref, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
